-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x128 : Shape := ⟨2, ![256, 128]⟩
abbrev S128x2048 : Shape := ⟨2, ![128, 2048]⟩
abbrev S1x128 : Shape := ⟨2, ![1, 128]⟩

abbrev nBuf : Space → Nat
  | .hbm => 29
  | .vmem => 42
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S4096x2048, .f32⟩
  | .hbm, ⟨28, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x128, .f32⟩
  | .local _ .vmem, ⟨5, _⟩ => ⟨S256x128, .f32⟩
  | .local _ .vmem, ⟨6, _⟩ => ⟨S128x2048, .f32⟩
  | .local _ .vmem, ⟨7, _⟩ => ⟨S128x2048, .f32⟩
  | .local _ .vmem, ⟨8, _⟩ => ⟨S1x128, .f32⟩
  | .local _ .vmem, ⟨9, _⟩ => ⟨S1x128, .f32⟩
  | .local _ .vmem, ⟨10, _⟩ => ⟨S128x2048, .f32⟩
  | .local _ .vmem, ⟨11, _⟩ => ⟨S128x2048, .f32⟩
  | .local _ .vmem, ⟨12, _⟩ => ⟨S1x128, .f32⟩
  | .local _ .vmem, ⟨13, _⟩ => ⟨S1x128, .f32⟩
  | .local _ .vmem, ⟨14, _⟩ => ⟨S128x2048, .f32⟩
  | .local _ .vmem, ⟨15, _⟩ => ⟨S128x2048, .f32⟩
  | .local _ .vmem, ⟨16, _⟩ => ⟨S1x128, .f32⟩
  | .local _ .vmem, ⟨17, _⟩ => ⟨S1x128, .f32⟩
  | .local _ .vmem, ⟨18, _⟩ => ⟨S128x2048, .f32⟩
  | .local _ .vmem, ⟨19, _⟩ => ⟨S128x2048, .f32⟩
  | .local _ .vmem, ⟨20, _⟩ => ⟨S1x128, .f32⟩
  | .local _ .vmem, ⟨21, _⟩ => ⟨S1x128, .f32⟩
  | .local _ .vmem, ⟨22, _⟩ => ⟨S128x2048, .f32⟩
  | .local _ .vmem, ⟨23, _⟩ => ⟨S128x2048, .f32⟩
  | .local _ .vmem, ⟨24, _⟩ => ⟨S1x128, .f32⟩
  | .local _ .vmem, ⟨25, _⟩ => ⟨S1x128, .f32⟩
  | .local _ .vmem, ⟨26, _⟩ => ⟨S128x2048, .f32⟩
  | .local _ .vmem, ⟨27, _⟩ => ⟨S128x2048, .f32⟩
  | .local _ .vmem, ⟨28, _⟩ => ⟨S1x128, .f32⟩
  | .local _ .vmem, ⟨29, _⟩ => ⟨S1x128, .f32⟩
  | .local _ .vmem, ⟨30, _⟩ => ⟨S128x2048, .f32⟩
  | .local _ .vmem, ⟨31, _⟩ => ⟨S128x2048, .f32⟩
  | .local _ .vmem, ⟨32, _⟩ => ⟨S1x128, .f32⟩
  | .local _ .vmem, ⟨33, _⟩ => ⟨S1x128, .f32⟩
  | .local _ .vmem, ⟨34, _⟩ => ⟨S128x2048, .f32⟩
  | .local _ .vmem, ⟨35, _⟩ => ⟨S128x2048, .f32⟩
  | .local _ .vmem, ⟨36, _⟩ => ⟨S1x128, .f32⟩
  | .local _ .vmem, ⟨37, _⟩ => ⟨S1x128, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | .local _ .vmem, ⟨41, _⟩ => ⟨S256x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S128x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x2048_S128x2048_0_0 : ∀ a, (![0, 0] : Fin 2 → Nat) a + S128x2048.size a ≤ S128x2048.size a
  h_S128x2048 : 0 < S128x2048.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S256x2048_S128x2048_S256x128_1_1_0_0_n_n_wf : DotDims.WF S256x2048 S128x2048 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x2048.size a
  hwx0_2 : ∀ i : grid0.Coords, EltTy.bits .f32 = 32 ∨ (Rect.block (s := S4096x2048) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .f32 = 32 ∨ (Rect.block (s := S2048x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x2048.size a
  hwx0_4 : ∀ i : grid0.Coords, EltTy.bits .f32 = 32 ∨ (Rect.block (s := S1x2048) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .f32 = 32 ∨ (Rect.block (s := S2048x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x2048.size a
  hwx0_6 : ∀ i : grid0.Coords, EltTy.bits .f32 = 32 ∨ (Rect.block (s := S1x2048) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .f32 = 32 ∨ (Rect.block (s := S2048x2048) S128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x2048.size a
  hwx0_8 : ∀ i : grid0.Coords, EltTy.bits .f32 = 32 ∨ (Rect.block (s := S1x2048) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .f32 = 32 ∨ (Rect.block (s := S2048x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x2048.size a
  hwx0_10 : ∀ i : grid0.Coords, EltTy.bits .f32 = 32 ∨ (Rect.block (s := S1x2048) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S2048x2048.size a
  hwx0_11 : ∀ i : grid0.Coords, EltTy.bits .f32 = 32 ∨ (Rect.block (s := S2048x2048) S128x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x2048.size a ≤ S2048x2048.size a
  hwx0_13 : ∀ i : grid0.Coords, EltTy.bits .f32 = 32 ∨ (Rect.block (s := S2048x2048) S128x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x2048.size a ≤ S2048x2048.size a
  hwx0_15 : ∀ i : grid0.Coords, EltTy.bits .f32 = 32 ∨ (Rect.block (s := S2048x2048) S128x2048.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x2048.size a
  hwx0_16 : ∀ i : grid0.Coords, EltTy.bits .f32 = 32 ∨ (Rect.block (s := S1x2048) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x2048.size a ≤ S2048x2048.size a
  hwx0_17 : ∀ i : grid0.Coords, EltTy.bits .f32 = 32 ∨ (Rect.block (s := S2048x2048) S128x2048.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x2048.size a
  hwx0_18 : ∀ i : grid0.Coords, EltTy.bits .f32 = 32 ∨ (Rect.block (s := S1x2048) S1x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S4096x2048.size a
  hwx0_19 : ∀ i : grid0.Coords, EltTy.bits .f32 = 32 ∨ (Rect.block (s := S4096x2048) S256x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x128.size a ≤ S4096x2048.size a
  hwx0_20 : ∀ i : grid0.Coords, EltTy.bits .f32 = 32 ∨ (Rect.block (s := S4096x2048) S256x128.size (cc0_transform_20 i) (hinb0_20 i)).WholeWords (EltTy.packing .f32)

variable [Facts₀]

def dot_S256x2048_S128x2048_S256x128_1_1_0_0_n_n : DotDims S256x2048 S128x2048 S256x128 where
  lhsContracting := [1]
  rhsContracting := [1]
  lhsNonContracting := [0]
  rhsNonContracting := [0]
  lhsBatch := []
  rhsBatch := []
  wf := dot_S256x2048_S128x2048_S256x128_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128x2048.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v6) S1x128.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x2048.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v7) S1x128.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v8_0) S256x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v8_1) S256x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S2048x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S2048x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S2048x2048, .f32⟩
  | .hbm, ⟨51, _⟩ => ⟨S4096x2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S2048x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S2048x2048, .f32⟩
  | .hbm, ⟨73, _⟩ => ⟨S4096x2048, .f32⟩
  | .hbm, ⟨74, _⟩ => ⟨S1x2048, .f32⟩
  | .hbm, ⟨75, _⟩ => ⟨S4096x2048, .f32⟩
  | .hbm, ⟨76, _⟩ => ⟨S4096x2048, .f32⟩
  | .hbm, ⟨77, _⟩ => ⟨S2048x2048, .f32⟩
  | .hbm, ⟨78, _⟩ => ⟨S4096x2048, .f32⟩
  | .hbm, ⟨79, _⟩ => ⟨S1x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_cst_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LstmSpec.lean ====
/-
  The LSTM cell as mathematics, over the extended reals, index by index.

  Inputs: a batch of 4096 rows with 2048 features (`x`), the previous hidden state `h` and cell state `c0` of the same
  shape, and for each of the four gates g, i, f, o two weight matrices [2048, 2048] (rows are output features, columns are
  input features, so a layer is `x Wᵀ + b`) and two bias vectors [2048].

    pre_γ (r, c) = (∑ₖ x(r,k) · Wγx(c,k) + bγx(c)) + (∑ₖ h(r,k) · Wγh(c,k) + bγh(c))        γ ∈ {g, i, f, o}
    cy (r, c)    = σ(pre_f) · c0(r,c) + σ(pre_i) · tanh(pre_g)
    hy (r, c)    = σ(pre_o) · tanh(cy (r, c))

  with σ y = 1 / (1 + e^(−y)) and tanh the extended-real functions (`Ideal.logistic`, `Ideal.tanh`). The sums are
  written exactly in this grouping: nothing below needs to move a term, so no finiteness is asked of the entries.
-/
import Idealize.ShloMosaic.PureOps.Ideal
import Idealize.ShloMosaic.Lib.ValueIdx

noncomputable section

namespace Cert.Lstm

open Idealize.ShloMosaic Idealize.ShloMosaic.ValueIdx

/-- A batch of activations: 4096 rows, 2048 features. -/
abbrev Act : Type := (⟨2, ![4096, 2048]⟩ : Shape).Idx → EReal
/-- A weight matrix: 2048 output features by 2048 input features. -/
abbrev Wt : Type := (⟨2, ![2048, 2048]⟩ : Shape).Idx → EReal
/-- A bias vector: one entry per output feature. -/
abbrev Bias : Type := (⟨1, ![2048]⟩ : Shape).Idx → EReal

/-- One linear layer `x Wᵀ + b` at row `r` and output feature `c`. -/
def affine (x : Act) (W : Wt) (b : Bias) (r : Fin 4096) (c : Fin 2048) : EReal :=
  (∑ k : Fin 2048, x (ix2 r k) * W (ix2 c k)) + b (ix1 c)

/-- A gate's pre-activation: the input's layer plus the hidden state's layer. -/
def pre (x h : Act) (Wx : Wt) (bx : Bias) (Wh : Wt) (bh : Bias) (r : Fin 4096) (c : Fin 2048) : EReal :=
  affine x Wx bx r c + affine h Wh bh r c

/-- The new cell state: forget gate times the old state plus input gate times the candidate. -/
def cellAt (x h c0 : Act) (Wgx : Wt) (bgx : Bias) (Wgh : Wt) (bgh : Bias) (Wix : Wt) (bix : Bias) (Wih : Wt) (bih : Bias)
    (Wfx : Wt) (bfx : Bias) (Wfh : Wt) (bfh : Bias) (r : Fin 4096) (c : Fin 2048) : EReal :=
  Ideal.logistic (pre x h Wfx bfx Wfh bfh r c) * c0 (ix2 r c)
    + Ideal.logistic (pre x h Wix bix Wih bih r c) * Ideal.tanh (pre x h Wgx bgx Wgh bgh r c)

/-- The new hidden state: output gate times tanh of the new cell state. -/
def hiddenAt (x h c0 : Act) (Wgx : Wt) (bgx : Bias) (Wgh : Wt) (bgh : Bias) (Wix : Wt) (bix : Bias) (Wih : Wt) (bih : Bias)
    (Wfx : Wt) (bfx : Bias) (Wfh : Wt) (bfh : Bias) (Wox : Wt) (box : Bias) (Woh : Wt) (boh : Bias)
    (r : Fin 4096) (c : Fin 2048) : EReal :=
  Ideal.logistic (pre x h Wox box Woh boh r c)
    * Ideal.tanh (cellAt x h c0 Wgx bgx Wgh bgh Wix bix Wih bih Wfx bfx Wfh bfh r c)

/-- The new cell state as a whole array. -/
def cellArr (x h c0 : Act) (Wgx : Wt) (bgx : Bias) (Wgh : Wt) (bgh : Bias) (Wix : Wt) (bix : Bias) (Wih : Wt) (bih : Bias)
    (Wfx : Wt) (bfx : Bias) (Wfh : Wt) (bfh : Bias) : Act :=
  fun i => cellAt x h c0 Wgx bgx Wgh bgh Wix bix Wih bih Wfx bfx Wfh bfh (i 0) (i 1)

/-- The new hidden state as a whole array. -/
def hiddenArr (x h c0 : Act) (Wgx : Wt) (bgx : Bias) (Wgh : Wt) (bgh : Bias) (Wix : Wt) (bix : Bias) (Wih : Wt) (bih : Bias)
    (Wfx : Wt) (bfx : Bias) (Wfh : Wt) (bfh : Bias) (Wox : Wt) (box : Bias) (Woh : Wt) (boh : Bias) : Act :=
  fun i => hiddenAt x h c0 Wgx bgx Wgh bgh Wix bix Wih bih Wfx bfx Wfh bfh Wox box Woh boh (i 0) (i 1)

/-- The float pattern of `1.0` denotes the real number one. -/
theorem one_f32 : Ideal.ofBits .f32 0x3F800000#32 = 1 := by
  simp [Ideal.ofBits, Ideal.ieee, -EReal.coe_mul]; norm_num

/-- The logistic function is the quotient the reference spells: one over one plus the exponential of the negation. -/
theorem logistic_eq (y : EReal) : Ideal.logistic y = Ideal.div 1 (1 + Ideal.exp (-y)) := rfl

end Cert.Lstm

end
-- ==== Proof.KernelBlock.lean ====
/-
  What the kernel body computes on ONE grid point's blocks, entry by entry.

  The body holds a [256, 2048] block of `x` and of `h` (256 batch rows), a [256, 128] block of `c0`, and per gate two
  [128, 2048] blocks of weight rows (128 output features) and two [1, 128] blocks of bias. Each linear layer is a matrix
  product contracting the 2048 input features of the activation block against the SAME axis of the weight block (the
  weights are stored output-feature-major, so no transposition is spelt), into a zero accumulator, plus the bias row
  broadcast down the 256 rows: at (p, q) it is `∑ₖ x(p,k) · w(q,k) + b(0,q)`. Rounding the operands to bf16 is the
  identity on the extended reals. The gates and the two outputs are then pointwise.
-/
import proofs.«154099_j31129922961925_1_alg».proof.Proof.Gen.KernelIdeal.Skeleton
import Idealize.ShloMosaic.Lib.ValueIdx
import Idealize.ShloMosaic.Lib.Pipeline.Value
import Idealize.ShloMosaic.PureOps.Ideal.Laws
import proofs.«154099_j31129922961925_1_alg».proof.Proof.LstmSpec

noncomputable section

namespace Cert.KernelIdeal.Block

open Cert.KernelIdeal Cert.KernelIdeal.Gen Idealize.ShloMosaic Idealize.ShloMosaic.ValueIdx Cert.Lstm

/-! ## The matrix product's operand indices -/

theorem lhs_axis0 (i : S256x128.Idx) (q : dot_S256x2048_S128x2048_S256x128_1_1_0_0_n_n.contr.Idx) :
    (dot_S256x2048_S128x2048_S256x128_1_1_0_0_n_n.lhsIdx i q 0).val = (i 0).val := by
  unfold DotDims.lhsIdx
  rw [dif_neg (show ¬(0 : Fin S256x2048.rank) ∈ dot_S256x2048_S128x2048_S256x128_1_1_0_0_n_n.lhsBatch by decide), dif_pos (show (0 : Fin S256x2048.rank) ∈ dot_S256x2048_S128x2048_S256x128_1_1_0_0_n_n.lhsNonContracting by decide)]
  rfl
theorem lhs_axis1 (i : S256x128.Idx) (q : dot_S256x2048_S128x2048_S256x128_1_1_0_0_n_n.contr.Idx) :
    (dot_S256x2048_S128x2048_S256x128_1_1_0_0_n_n.lhsIdx i q 1).val = (q ⟨0, by decide⟩).val :=
  dot_S256x2048_S128x2048_S256x128_1_1_0_0_n_n.lhsIdx_val_of_single rfl i q
theorem rhs_axis0 (i : S256x128.Idx) (q : dot_S256x2048_S128x2048_S256x128_1_1_0_0_n_n.contr.Idx) :
    (dot_S256x2048_S128x2048_S256x128_1_1_0_0_n_n.rhsIdx i q 0).val = (i 1).val := by
  unfold DotDims.rhsIdx
  rw [dif_neg (show ¬(0 : Fin S128x2048.rank) ∈ dot_S256x2048_S128x2048_S256x128_1_1_0_0_n_n.rhsBatch by decide), dif_pos (show (0 : Fin S128x2048.rank) ∈ dot_S256x2048_S128x2048_S256x128_1_1_0_0_n_n.rhsNonContracting by decide)]
  rfl
theorem rhs_axis1 (i : S256x128.Idx) (q : dot_S256x2048_S128x2048_S256x128_1_1_0_0_n_n.contr.Idx) :
    (dot_S256x2048_S128x2048_S256x128_1_1_0_0_n_n.rhsIdx i q 1).val = (q ⟨0, by decide⟩).val :=
  dot_S256x2048_S128x2048_S256x128_1_1_0_0_n_n.rhsIdx_val_of_single rfl i q

/-- The body's matrix product into the zero accumulator, at (p, q): row `p` of the left block against row `q` of the right. -/
theorem matmul_at (x : FVec Ideal S256x2048 .bf16) (w : FVec Ideal S128x2048 .bf16) (p : Fin 256) (q : Fin 128) :
    matmul dot_S256x2048_S128x2048_S256x128_1_1_0_0_n_n none x w (constant S256x128 .f32 0x00000000#32) (ix2 p q)
      = ∑ k : Fin 2048, x (ix2 p k) * w (ix2 q k) := by
  simp only [matmul]
  rw [Ideal.matmul_constant_zero_apply, ← Equiv.sum_comp (contrEquiv1 dot_S256x2048_S128x2048_S256x128_1_1_0_0_n_n 2048 rfl rfl).symm]
  refine Finset.sum_congr rfl fun k _ => ?_
  have hk := contrEquiv1_symm_val dot_S256x2048_S128x2048_S256x128_1_1_0_0_n_n 2048 rfl rfl k
  have el : dot_S256x2048_S128x2048_S256x128_1_1_0_0_n_n.lhsIdx (ix2 p q) ((contrEquiv1 dot_S256x2048_S128x2048_S256x128_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S256x2048_S128x2048_S256x128_1_1_0_0_n_n.rhsIdx (ix2 p q) ((contrEquiv1 dot_S256x2048_S128x2048_S256x128_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-- The bias row broadcast down the block's rows, at (p, q): the row's entry `q`. -/
theorem bias_at (b : Vec Ideal S1x128 .f32) (p : Fin 256) (q : Fin 128) :
    broadcastTo S256x128 (shapeCast S1x128 b shapeCasts_S1x128_S1x128) broadcasts_S1x128_S256x128 (ix2 p q)
      = b (ix2 0 q) := by
  rw [shapeCast_self]
  exact broadcastTo_apply b broadcasts_S1x128_S256x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## One linear layer on a point's blocks -/

/-- The layer as the body spells it: the product of the activation block with the (rounded) weight block into zero, plus
    the broadcast bias row. -/
def layer (x : Vec Ideal S256x2048 .f32) (w : Vec Ideal S128x2048 .f32) (b : Vec Ideal S1x128 .f32) : FVec Ideal S256x128 .f32 :=
  addf (matmul dot_S256x2048_S128x2048_S256x128_1_1_0_0_n_n none (truncf .bf16 x bitsLt_bf16_f32) (truncf .bf16 w bitsLt_bf16_f32) (constant S256x128 .f32 0x00000000#32))
    (broadcastTo S256x128 (shapeCast S1x128 b shapeCasts_S1x128_S1x128) broadcasts_S1x128_S256x128)

/-- The layer at (p, q). -/
theorem layer_at (x : Vec Ideal S256x2048 .f32) (w : Vec Ideal S128x2048 .f32) (b : Vec Ideal S1x128 .f32) (p : Fin 256) (q : Fin 128) :
    layer x w b (ix2 p q) = (∑ k : Fin 2048, x (ix2 p k) * w (ix2 q k)) + b (ix2 0 q) := by
  show matmul (F := Ideal) dot_S256x2048_S128x2048_S256x128_1_1_0_0_n_n none (truncf (F := Ideal) .bf16 x bitsLt_bf16_f32) (truncf (F := Ideal) .bf16 w bitsLt_bf16_f32)
        (constant (F := Ideal) S256x128 .f32 0x00000000#32) (ix2 p q)
      + broadcastTo S256x128 (shapeCast S1x128 b shapeCasts_S1x128_S1x128) broadcasts_S1x128_S256x128 (ix2 p q) = _
  rw [matmul_at, bias_at]
  rfl

/-! ## The two stored values as trees of layers -/

/-- The new cell state on a point's blocks, entry by entry. -/
def cellBlk (x0 x1 : Vec Ideal S256x2048 .f32) (x2 : Vec Ideal S256x128 .f32)
    (x3 : Vec Ideal S128x2048 .f32) (x4 : Vec Ideal S1x128 .f32) (x5 : Vec Ideal S128x2048 .f32) (x6 : Vec Ideal S1x128 .f32)
    (x7 : Vec Ideal S128x2048 .f32) (x8 : Vec Ideal S1x128 .f32) (x9 : Vec Ideal S128x2048 .f32) (x10 : Vec Ideal S1x128 .f32)
    (x11 : Vec Ideal S128x2048 .f32) (x12 : Vec Ideal S1x128 .f32) (x13 : Vec Ideal S128x2048 .f32) (x14 : Vec Ideal S1x128 .f32) :
    FVec Ideal S256x128 .f32 := fun y =>
  Ideal.logistic (layer x0 x11 x12 y + layer x1 x13 x14 y) * x2 y
    + Ideal.logistic (layer x0 x7 x8 y + layer x1 x9 x10 y) * Ideal.tanh (layer x0 x3 x4 y + layer x1 x5 x6 y)

/-- The new hidden state on a point's blocks, entry by entry. -/
def hiddenBlk (x0 x1 : Vec Ideal S256x2048 .f32) (x2 : Vec Ideal S256x128 .f32)
    (x3 : Vec Ideal S128x2048 .f32) (x4 : Vec Ideal S1x128 .f32) (x5 : Vec Ideal S128x2048 .f32) (x6 : Vec Ideal S1x128 .f32)
    (x7 : Vec Ideal S128x2048 .f32) (x8 : Vec Ideal S1x128 .f32) (x9 : Vec Ideal S128x2048 .f32) (x10 : Vec Ideal S1x128 .f32)
    (x11 : Vec Ideal S128x2048 .f32) (x12 : Vec Ideal S1x128 .f32) (x13 : Vec Ideal S128x2048 .f32) (x14 : Vec Ideal S1x128 .f32)
    (x15 : Vec Ideal S128x2048 .f32) (x16 : Vec Ideal S1x128 .f32) (x17 : Vec Ideal S128x2048 .f32) (x18 : Vec Ideal S1x128 .f32) :
    FVec Ideal S256x128 .f32 := fun y =>
  Ideal.logistic (layer x0 x15 x16 y + layer x1 x17 x18 y)
    * Ideal.tanh (cellBlk x0 x1 x2 x3 x4 x5 x6 x7 x8 x9 x10 x11 x12 x13 x14 y)

/-- The value the body stores into the cell-state output is `cellBlk` of the blocks it loaded. -/
theorem cell_payload (x0 x1 : Vec Ideal S256x2048 .f32) (x2 : Vec Ideal S256x128 .f32)
    (x3 : Vec Ideal S128x2048 .f32) (x4 : Vec Ideal S1x128 .f32) (x5 : Vec Ideal S128x2048 .f32) (x6 : Vec Ideal S1x128 .f32)
    (x7 : Vec Ideal S128x2048 .f32) (x8 : Vec Ideal S1x128 .f32) (x9 : Vec Ideal S128x2048 .f32) (x10 : Vec Ideal S1x128 .f32)
    (x11 : Vec Ideal S128x2048 .f32) (x12 : Vec Ideal S1x128 .f32) (x13 : Vec Ideal S128x2048 .f32) (x14 : Vec Ideal S1x128 .f32) :
    k0_pay9 (k0_pay2 x0) (k0_pay3 x1) x2 (k0_pay4 x0 x1 x3 x4 x5 x6) (k0_pay5 x0 x7 x8) (k0_pay6 x1 x9) (k0_pay7 x10) x11 x12 x13 x14
      = cellBlk x0 x1 x2 x3 x4 x5 x6 x7 x8 x9 x10 x11 x12 x13 x14 := rfl

/-- The value the body stores into the hidden-state output is `hiddenBlk` of the blocks it loaded. -/
theorem hidden_payload (x0 x1 : Vec Ideal S256x2048 .f32) (x2 : Vec Ideal S256x128 .f32)
    (x3 : Vec Ideal S128x2048 .f32) (x4 : Vec Ideal S1x128 .f32) (x5 : Vec Ideal S128x2048 .f32) (x6 : Vec Ideal S1x128 .f32)
    (x7 : Vec Ideal S128x2048 .f32) (x8 : Vec Ideal S1x128 .f32) (x9 : Vec Ideal S128x2048 .f32) (x10 : Vec Ideal S1x128 .f32)
    (x11 : Vec Ideal S128x2048 .f32) (x12 : Vec Ideal S1x128 .f32) (x13 : Vec Ideal S128x2048 .f32) (x14 : Vec Ideal S1x128 .f32)
    (x15 : Vec Ideal S128x2048 .f32) (x16 : Vec Ideal S1x128 .f32) (x17 : Vec Ideal S128x2048 .f32) (x18 : Vec Ideal S1x128 .f32) :
    k0_pay1 (k0_pay8 (k0_pay2 x0) (k0_pay3 x1) x15 x16 x17 x18)
        (k0_pay9 (k0_pay2 x0) (k0_pay3 x1) x2 (k0_pay4 x0 x1 x3 x4 x5 x6) (k0_pay5 x0 x7 x8) (k0_pay6 x1 x9) (k0_pay7 x10) x11 x12 x13 x14)
      = hiddenBlk x0 x1 x2 x3 x4 x5 x6 x7 x8 x9 x10 x11 x12 x13 x14 x15 x16 x17 x18 := rfl

/-! ## A point's blocks against the whole arrays

A grid point's blocks are rows `r`-wards of the activations and rows `cc`-wards of the weights. Where entry (p, q) of the
block sits at entry (r, cc) of the array — each block entry the body reads being the array entry the specification reads —
the block-level values are the specification's. -/

/-- One layer: the block's sum over the input features is the array's. -/
theorem layer_eq (B : Vec Ideal S256x2048 .f32) (Wb : Vec Ideal S128x2048 .f32) (bb : Vec Ideal S1x128 .f32)
    (A : Act) (W : Wt) (b : Bias) (p : Fin 256) (q : Fin 128) (r : Fin 4096) (cc : Fin 2048)
    (hA : ∀ k : Fin 2048, B (ix2 p k) = A (ix2 r k)) (hW : ∀ k : Fin 2048, Wb (ix2 q k) = W (ix2 cc k))
    (hb : bb (ix2 0 q) = b (ix1 cc)) :
    layer B Wb bb (ix2 p q) = affine A W b r cc := by
  rw [layer_at, hb]
  unfold affine
  congr 1
  exact Finset.sum_congr rfl fun k _ => by rw [hA k, hW k]

/-- The new cell state: the block's entry (p, q) is the specification's entry (r, cc). -/
theorem cellBlk_eq (B0 B1 : Vec Ideal S256x2048 .f32) (B2 : Vec Ideal S256x128 .f32)
    (B3 : Vec Ideal S128x2048 .f32) (B4 : Vec Ideal S1x128 .f32) (B5 : Vec Ideal S128x2048 .f32) (B6 : Vec Ideal S1x128 .f32)
    (B7 : Vec Ideal S128x2048 .f32) (B8 : Vec Ideal S1x128 .f32) (B9 : Vec Ideal S128x2048 .f32) (B10 : Vec Ideal S1x128 .f32)
    (B11 : Vec Ideal S128x2048 .f32) (B12 : Vec Ideal S1x128 .f32) (B13 : Vec Ideal S128x2048 .f32) (B14 : Vec Ideal S1x128 .f32)
    (x h c0 : Act) (Wgx : Wt) (bgx : Bias) (Wgh : Wt) (bgh : Bias) (Wix : Wt) (bix : Bias) (Wih : Wt) (bih : Bias)
    (Wfx : Wt) (bfx : Bias) (Wfh : Wt) (bfh : Bias)
    (p : Fin 256) (q : Fin 128) (r : Fin 4096) (cc : Fin 2048)
    (h0 : ∀ k : Fin 2048, B0 (ix2 p k) = x (ix2 r k)) (h1 : ∀ k : Fin 2048, B1 (ix2 p k) = h (ix2 r k))
    (h2 : B2 (ix2 p q) = c0 (ix2 r cc))
    (h3 : ∀ k : Fin 2048, B3 (ix2 q k) = Wgx (ix2 cc k)) (h4 : B4 (ix2 0 q) = bgx (ix1 cc))
    (h5 : ∀ k : Fin 2048, B5 (ix2 q k) = Wgh (ix2 cc k)) (h6 : B6 (ix2 0 q) = bgh (ix1 cc))
    (h7 : ∀ k : Fin 2048, B7 (ix2 q k) = Wix (ix2 cc k)) (h8 : B8 (ix2 0 q) = bix (ix1 cc))
    (h9 : ∀ k : Fin 2048, B9 (ix2 q k) = Wih (ix2 cc k)) (h10 : B10 (ix2 0 q) = bih (ix1 cc))
    (h11 : ∀ k : Fin 2048, B11 (ix2 q k) = Wfx (ix2 cc k)) (h12 : B12 (ix2 0 q) = bfx (ix1 cc))
    (h13 : ∀ k : Fin 2048, B13 (ix2 q k) = Wfh (ix2 cc k)) (h14 : B14 (ix2 0 q) = bfh (ix1 cc)) :
    cellBlk B0 B1 B2 B3 B4 B5 B6 B7 B8 B9 B10 B11 B12 B13 B14 (ix2 p q)
      = cellAt x h c0 Wgx bgx Wgh bgh Wix bix Wih bih Wfx bfx Wfh bfh r cc := by
  show Ideal.logistic (layer B0 B11 B12 (ix2 p q) + layer B1 B13 B14 (ix2 p q)) * B2 (ix2 p q)
      + Ideal.logistic (layer B0 B7 B8 (ix2 p q) + layer B1 B9 B10 (ix2 p q))
        * Ideal.tanh (layer B0 B3 B4 (ix2 p q) + layer B1 B5 B6 (ix2 p q)) = _
  rw [layer_eq B0 B11 B12 x Wfx bfx p q r cc h0 h11 h12, layer_eq B1 B13 B14 h Wfh bfh p q r cc h1 h13 h14,
    layer_eq B0 B7 B8 x Wix bix p q r cc h0 h7 h8, layer_eq B1 B9 B10 h Wih bih p q r cc h1 h9 h10,
    layer_eq B0 B3 B4 x Wgx bgx p q r cc h0 h3 h4, layer_eq B1 B5 B6 h Wgh bgh p q r cc h1 h5 h6, h2]
  rfl

/-- The new hidden state: the block's entry (p, q) is the specification's entry (r, cc). -/
theorem hiddenBlk_eq (B0 B1 : Vec Ideal S256x2048 .f32) (B2 : Vec Ideal S256x128 .f32)
    (B3 : Vec Ideal S128x2048 .f32) (B4 : Vec Ideal S1x128 .f32) (B5 : Vec Ideal S128x2048 .f32) (B6 : Vec Ideal S1x128 .f32)
    (B7 : Vec Ideal S128x2048 .f32) (B8 : Vec Ideal S1x128 .f32) (B9 : Vec Ideal S128x2048 .f32) (B10 : Vec Ideal S1x128 .f32)
    (B11 : Vec Ideal S128x2048 .f32) (B12 : Vec Ideal S1x128 .f32) (B13 : Vec Ideal S128x2048 .f32) (B14 : Vec Ideal S1x128 .f32)
    (B15 : Vec Ideal S128x2048 .f32) (B16 : Vec Ideal S1x128 .f32) (B17 : Vec Ideal S128x2048 .f32) (B18 : Vec Ideal S1x128 .f32)
    (x h c0 : Act) (Wgx : Wt) (bgx : Bias) (Wgh : Wt) (bgh : Bias) (Wix : Wt) (bix : Bias) (Wih : Wt) (bih : Bias)
    (Wfx : Wt) (bfx : Bias) (Wfh : Wt) (bfh : Bias) (Wox : Wt) (box : Bias) (Woh : Wt) (boh : Bias)
    (p : Fin 256) (q : Fin 128) (r : Fin 4096) (cc : Fin 2048)
    (h0 : ∀ k : Fin 2048, B0 (ix2 p k) = x (ix2 r k)) (h1 : ∀ k : Fin 2048, B1 (ix2 p k) = h (ix2 r k))
    (h2 : B2 (ix2 p q) = c0 (ix2 r cc))
    (h3 : ∀ k : Fin 2048, B3 (ix2 q k) = Wgx (ix2 cc k)) (h4 : B4 (ix2 0 q) = bgx (ix1 cc))
    (h5 : ∀ k : Fin 2048, B5 (ix2 q k) = Wgh (ix2 cc k)) (h6 : B6 (ix2 0 q) = bgh (ix1 cc))
    (h7 : ∀ k : Fin 2048, B7 (ix2 q k) = Wix (ix2 cc k)) (h8 : B8 (ix2 0 q) = bix (ix1 cc))
    (h9 : ∀ k : Fin 2048, B9 (ix2 q k) = Wih (ix2 cc k)) (h10 : B10 (ix2 0 q) = bih (ix1 cc))
    (h11 : ∀ k : Fin 2048, B11 (ix2 q k) = Wfx (ix2 cc k)) (h12 : B12 (ix2 0 q) = bfx (ix1 cc))
    (h13 : ∀ k : Fin 2048, B13 (ix2 q k) = Wfh (ix2 cc k)) (h14 : B14 (ix2 0 q) = bfh (ix1 cc))
    (h15 : ∀ k : Fin 2048, B15 (ix2 q k) = Wox (ix2 cc k)) (h16 : B16 (ix2 0 q) = box (ix1 cc))
    (h17 : ∀ k : Fin 2048, B17 (ix2 q k) = Woh (ix2 cc k)) (h18 : B18 (ix2 0 q) = boh (ix1 cc)) :
    hiddenBlk B0 B1 B2 B3 B4 B5 B6 B7 B8 B9 B10 B11 B12 B13 B14 B15 B16 B17 B18 (ix2 p q)
      = hiddenAt x h c0 Wgx bgx Wgh bgh Wix bix Wih bih Wfx bfx Wfh bfh Wox box Woh boh r cc := by
  show Ideal.logistic (layer B0 B15 B16 (ix2 p q) + layer B1 B17 B18 (ix2 p q))
      * Ideal.tanh (cellBlk B0 B1 B2 B3 B4 B5 B6 B7 B8 B9 B10 B11 B12 B13 B14 (ix2 p q)) = _
  rw [layer_eq B0 B15 B16 x Wox box p q r cc h0 h15 h16, layer_eq B1 B17 B18 h Woh boh p q r cc h1 h17 h18,
    cellBlk_eq B0 B1 B2 B3 B4 B5 B6 B7 B8 B9 B10 B11 B12 B13 B14 x h c0 Wgx bgx Wgh bgh Wix bix Wih bih Wfx bfx Wfh bfh
      p q r cc h0 h1 h2 h3 h4 h5 h6 h7 h8 h9 h10 h11 h12 h13 h14]
  rfl

end Cert.KernelIdeal.Block

end
-- ==== Proof.WindowReads.lean ====
/-
  Where a grid point's blocks sit in the arrays.

  The grid is 16 × 16. Point `t` has coordinates (t / 16, t % 16) = (row block, feature block): it reads rows
  256·(t/16) … of `x`, `h`, `c0`, weight rows (output features) 128·(t%16) … of each weight matrix and the matching 128
  bias entries. So entry (p, k) of its `x` block is entry (256·(t/16) + p, k) of `x`, entry (q, k) of a weight block is
  entry (128·(t%16) + q, k) of that weight matrix, and entry (0, q) of a bias block is entry 128·(t%16) + q of that bias.

  The bias operands reach the kernel as [1, 2048] arrays that the host reshaped from the [2048] arguments: entry (0, j) of
  the reshaped array is entry j of the argument.

  Stated here for the three activation windows, and for the FIRST weight window and the FIRST bias window (the candidate
  gate's input layer); the other seven weight windows and seven bias windows read the same way.
-/
import proofs.«154099_j31129922961925_1_alg».proof.Proof.Gen.KernelIdeal.Value
import proofs.«154099_j31129922961925_1_alg».proof.Proof.KernelBlock
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Lstm

open Cert.KernelIdeal Cert.KernelIdeal.Gen Cert.KernelIdeal.Value Cert.KernelIdeal.Block Cert.Lstm

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- The activations' windows follow the row block. -/
theorem idx_act : ∀ t : Fin cfg0.N,
    win0_0.index t (0 : Fin 2) = t.val / 16 ∧ win0_0.index t (1 : Fin 2) = 0
    ∧ win0_1.index t (0 : Fin 2) = t.val / 16 ∧ win0_1.index t (1 : Fin 2) = 0 :=
  (by decide +kernel : ∀ t : Fin grid0.N, _)

/-- The old cell state's window and the two results' windows follow both. -/
theorem idx_tile : ∀ t : Fin cfg0.N,
    win0_2.index t (0 : Fin 2) = t.val / 16 ∧ win0_2.index t (1 : Fin 2) = t.val % 16
    ∧ win0_19.index t (0 : Fin 2) = t.val / 16 ∧ win0_19.index t (1 : Fin 2) = t.val % 16
    ∧ win0_20.index t (0 : Fin 2) = t.val / 16 ∧ win0_20.index t (1 : Fin 2) = t.val % 16 :=
  (by decide +kernel : ∀ t : Fin grid0.N, _)

/-- The weights' windows follow the feature block, on their row axis. -/
theorem idx_wt : ∀ t : Fin cfg0.N,
    (win0_3.index t (0 : Fin 2) = t.val % 16 ∧ win0_3.index t (1 : Fin 2) = 0)
    ∧ (win0_5.index t (0 : Fin 2) = t.val % 16 ∧ win0_5.index t (1 : Fin 2) = 0)
    ∧ (win0_7.index t (0 : Fin 2) = t.val % 16 ∧ win0_7.index t (1 : Fin 2) = 0)
    ∧ (win0_9.index t (0 : Fin 2) = t.val % 16 ∧ win0_9.index t (1 : Fin 2) = 0)
    ∧ (win0_11.index t (0 : Fin 2) = t.val % 16 ∧ win0_11.index t (1 : Fin 2) = 0)
    ∧ (win0_13.index t (0 : Fin 2) = t.val % 16 ∧ win0_13.index t (1 : Fin 2) = 0)
    ∧ (win0_15.index t (0 : Fin 2) = t.val % 16 ∧ win0_15.index t (1 : Fin 2) = 0)
    ∧ (win0_17.index t (0 : Fin 2) = t.val % 16 ∧ win0_17.index t (1 : Fin 2) = 0) :=
  (by decide +kernel : ∀ t : Fin grid0.N, _)

/-- The biases' windows follow the feature block, on their column axis. -/
theorem idx_bias : ∀ t : Fin cfg0.N,
    (win0_4.index t (0 : Fin 2) = 0 ∧ win0_4.index t (1 : Fin 2) = t.val % 16)
    ∧ (win0_6.index t (0 : Fin 2) = 0 ∧ win0_6.index t (1 : Fin 2) = t.val % 16)
    ∧ (win0_8.index t (0 : Fin 2) = 0 ∧ win0_8.index t (1 : Fin 2) = t.val % 16)
    ∧ (win0_10.index t (0 : Fin 2) = 0 ∧ win0_10.index t (1 : Fin 2) = t.val % 16)
    ∧ (win0_12.index t (0 : Fin 2) = 0 ∧ win0_12.index t (1 : Fin 2) = t.val % 16)
    ∧ (win0_14.index t (0 : Fin 2) = 0 ∧ win0_14.index t (1 : Fin 2) = t.val % 16)
    ∧ (win0_16.index t (0 : Fin 2) = 0 ∧ win0_16.index t (1 : Fin 2) = t.val % 16)
    ∧ (win0_18.index t (0 : Fin 2) = 0 ∧ win0_18.index t (1 : Fin 2) = t.val % 16) :=
  (by decide +kernel : ∀ t : Fin grid0.N, _)

/-- A grid point's number is below 256. -/
theorem point_lt (t : Fin cfg0.N) : t.val < 256 := Nat.lt_of_lt_of_eq t.isLt N_0

/-- The array row under row `p` of point `t`'s blocks. -/
def rowOf (t : Fin cfg0.N) (p : Fin 256) : Fin 4096 :=
  ⟨t.val / 16 * 256 + p.val, by have := point_lt t; have := p.isLt; omega⟩

/-- The output feature under column `q` of point `t`'s blocks. -/
def colOf (t : Fin cfg0.N) (q : Fin 128) : Fin 2048 :=
  ⟨t.val % 16 * 128 + q.val, by have := q.isLt; omega⟩

/-- An array read at two indices with the same coordinates. -/
theorem read_congr {S : Shape} {α : Type} (A : S.Idx → α) (i j : S.Idx) (hij : ∀ a, (i a).val = (j a).val) : A i = A j :=
  congrArg A (funext fun a => Fin.ext (hij a))

/-! ## The bias rows the host reshaped -/

/-- Entry (0, j) of a reshaped bias array is entry j of the bias argument. -/
theorem reshaped_row (b : (⟨1, ![2048]⟩ : Shape).Idx → EReal) (h : S2048.ShapeCasts S1x2048) (j : Fin 2048) :
    shapeCast S1x2048 b h (ix2 0 j) = b (ix1 j) := by
  refine shapeCast_apply b h (ix2 0 j) (ix1 j) ?_
  rw [Shape.rowMajor_val_one, Shape.rowMajor_val_two]
  show j.val = 0 * 2048 + j.val
  omega

theorem bias_v0 (c : Dev nD) (j : Fin 2048) :
    (V m c main_v0 : S1x2048.Idx → EReal) (ix2 0 j) = (m ((c : Thread nD τ).loc main_arg4) : Bias) (ix1 j) := by
  have e : (V m c main_v0 : S1x2048.Idx → EReal)
      = shapeCast S1x2048 (m ((c : Thread nD τ).loc main_arg4) : Bias) shapeCasts_S2048_S1x2048 := by
    dsimp only [Gen.V, Gen.hostOps0]; after_results; rfl
  rw [e, reshaped_row]

/-! ## The windows' blocks as entries of the arrays -/

theorem read_x (c : Dev nD) (t : Fin cfg0.N) (p : Fin 256) (k : Fin 2048) :
    (iblk m c 0 t : Vec Ideal S256x2048 .f32) (ix2 p k) = (m ((c : Thread nD τ).loc main_arg0) : Act) (ix2 (rowOf t p) k) := by
  obtain ⟨e0, e1, -, -⟩ := idx_act t
  unfold iblk
  rw [View.read_apply]
  show V m c main_arg0 (((cfg0.win 0).blk t).view.emb (ix2 p k)) = _
  rw [V_main_arg0]
  refine read_congr _ _ _ fun a => ?_
  match a with
  | ⟨0, _⟩ => show win0_0.index t (0 : Fin 2) * 256 + 1 * p.val = t.val / 16 * 256 + p.val; rw [e0]; omega
  | ⟨1, _⟩ => show win0_0.index t (1 : Fin 2) * 2048 + 1 * k.val = k.val; rw [e1]; omega

theorem read_h (c : Dev nD) (t : Fin cfg0.N) (p : Fin 256) (k : Fin 2048) :
    (iblk m c 1 t : Vec Ideal S256x2048 .f32) (ix2 p k) = (m ((c : Thread nD τ).loc main_arg1) : Act) (ix2 (rowOf t p) k) := by
  obtain ⟨-, -, e0, e1⟩ := idx_act t
  unfold iblk
  rw [View.read_apply]
  show V m c main_arg1 (((cfg0.win 1).blk t).view.emb (ix2 p k)) = _
  rw [V_main_arg1]
  refine read_congr _ _ _ fun a => ?_
  match a with
  | ⟨0, _⟩ => show win0_1.index t (0 : Fin 2) * 256 + 1 * p.val = t.val / 16 * 256 + p.val; rw [e0]; omega
  | ⟨1, _⟩ => show win0_1.index t (1 : Fin 2) * 2048 + 1 * k.val = k.val; rw [e1]; omega

theorem read_c0 (c : Dev nD) (t : Fin cfg0.N) (p : Fin 256) (q : Fin 128) :
    (iblk m c 2 t : Vec Ideal S256x128 .f32) (ix2 p q)
      = (m ((c : Thread nD τ).loc main_arg2) : Act) (ix2 (rowOf t p) (colOf t q)) := by
  obtain ⟨e0, e1, -⟩ := idx_tile t
  unfold iblk
  rw [View.read_apply]
  show V m c main_arg2 (((cfg0.win 2).blk t).view.emb (ix2 p q)) = _
  rw [V_main_arg2]
  refine read_congr _ _ _ fun a => ?_
  match a with
  | ⟨0, _⟩ => show win0_2.index t (0 : Fin 2) * 256 + 1 * p.val = t.val / 16 * 256 + p.val; rw [e0]; omega
  | ⟨1, _⟩ => show win0_2.index t (1 : Fin 2) * 128 + 1 * q.val = t.val % 16 * 128 + q.val; rw [e1]; omega

theorem read_wgx (c : Dev nD) (t : Fin cfg0.N) (q : Fin 128) (k : Fin 2048) :
    (iblk m c 3 t : Vec Ideal S128x2048 .f32) (ix2 q k) = (m ((c : Thread nD τ).loc main_arg3) : Wt) (ix2 (colOf t q) k) := by
  obtain ⟨e0, e1⟩ := (idx_wt t).1
  unfold iblk
  rw [View.read_apply]
  show V m c main_arg3 (((cfg0.win 3).blk t).view.emb (ix2 q k)) = _
  rw [V_main_arg3]
  refine read_congr _ _ _ fun a => ?_
  match a with
  | ⟨0, _⟩ => show win0_3.index t (0 : Fin 2) * 128 + 1 * q.val = t.val % 16 * 128 + q.val; rw [e0]; omega
  | ⟨1, _⟩ => show win0_3.index t (1 : Fin 2) * 2048 + 1 * k.val = k.val; rw [e1]; omega

theorem read_bgx (c : Dev nD) (t : Fin cfg0.N) (q : Fin 128) :
    (iblk m c 4 t : Vec Ideal S1x128 .f32) (ix2 0 q) = (m ((c : Thread nD τ).loc main_arg4) : Bias) (ix1 (colOf t q)) := by
  obtain ⟨e0, e1⟩ := (idx_bias t).1
  unfold iblk
  rw [View.read_apply]
  show V m c main_v0 (((cfg0.win 4).blk t).view.emb (ix2 0 q)) = _
  rw [← bias_v0 m c (colOf t q)]
  refine read_congr _ _ _ fun a => ?_
  match a with
  | ⟨0, _⟩ => show win0_4.index t (0 : Fin 2) * 1 + 1 * 0 = 0; rw [e0]
  | ⟨1, _⟩ => show win0_4.index t (1 : Fin 2) * 128 + 1 * q.val = t.val % 16 * 128 + q.val; rw [e1]; omega

end Cert.KernelIdeal.Lstm

end
-- ==== Proof.KernelValue.lean ====
/-
  From grid points to whole arrays: what the kernel leaves in its two result arrays.

  Point `t` of the 16 × 16 grid writes the [256, 128] tile at (256·(t/16), 128·(t%16)) of both results. On that tile the
  body's two stored values are the specification's new hidden state and new cell state at the tile's rows and features,
  because every block entry the body reads is the array entry the specification reads there. Array entry (r, cc) lies in
  the tile of point 16·(r/256) + cc/128, so the 256 tiles cover the [4096, 2048] arrays and each result array is the
  specification's array.
-/
import proofs.«154099_j31129922961925_1_alg».proof.Proof.WindowReadsSiblings

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Lstm

open Cert.KernelIdeal Cert.KernelIdeal.Gen Cert.KernelIdeal.Value Cert.KernelIdeal.Block Cert.Lstm

variable (m : (ℓ : Loc nD τ sig) → Buf (Elt Ideal) ℓ) (ρ : Dev nD → PrngReg)

/-! ## What each point writes back -/

/-- Point `t` writes the tile of the new hidden state at its rows and features. -/
theorem flushed_hidden (c : Dev nD) (t : Fin cfg0.N) :
    (dats m 0 c).flushed 19 t = ((cfg0.win 19).blk t).view.read (Elt Ideal)
      (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  rw [flushed19]
  unfold out0_19
  rw [View.canon_unit_zero hz]
  simp only [View.ld_unit_zero (S := S256x2048) hz, View.ld_unit_zero (S := S256x128) hz,
    View.ld_unit_zero (S := S128x2048) hz, View.ld_unit_zero (S := S1x128) hz]
  rw [hidden_payload]
  refine funext fun (y : S256x128.Idx) => ?_
  obtain ⟨p, q, rfl⟩ : ∃ (p : Fin 256) (q : Fin 128), y = ix2 p q := ⟨y 0, y 1, eq_ix2 y⟩
  obtain ⟨-, -, e0, e1, -, -⟩ := idx_tile t
  have hr : rowOf t p = ((cfg0.win 19).blk t).view.emb (ix2 p q) 0 := Fin.ext (by
    show t.val / 16 * 256 + p.val = win0_19.index t (0 : Fin 2) * 256 + 1 * p.val; rw [e0]; omega)
  have hc : colOf t q = ((cfg0.win 19).blk t).view.emb (ix2 p q) 1 := Fin.ext (by
    show t.val % 16 * 128 + q.val = win0_19.index t (1 : Fin 2) * 128 + 1 * q.val; rw [e1]; omega)
  show hiddenBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 p q)
      = hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
        (((cfg0.win 19).blk t).view.emb (ix2 p q) 0) (((cfg0.win 19).blk t).view.emb (ix2 p q) 1)
  refine (hiddenBlk_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      p q (rowOf t p) (colOf t q)
      (read_x m c t p) (read_h m c t p) (read_c0 m c t p q)
      (read_wgx m c t q) (read_bgx m c t q) (read_wgh m c t q) (read_bgh m c t q)
      (read_wix m c t q) (read_bix m c t q) (read_wih m c t q) (read_bih m c t q)
      (read_wfx m c t q) (read_bfx m c t q) (read_wfh m c t q) (read_bfh m c t q)
      (read_wox m c t q) (read_box m c t q) (read_woh m c t q) (read_boh m c t q)).trans ?_
  exact congrArg₂ _ hr hc

/-- Point `t` writes the tile of the new cell state at its rows and features. -/
theorem flushed_cell (c : Dev nD) (t : Fin cfg0.N) :
    (dats m 0 c).flushed 20 t = ((cfg0.win 20).blk t).view.read (Elt Ideal)
      (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [flushed20]
  unfold out0_20
  rw [View.canon_unit_zero hz]
  simp only [View.ld_unit_zero (S := S256x2048) hz, View.ld_unit_zero (S := S256x128) hz,
    View.ld_unit_zero (S := S128x2048) hz, View.ld_unit_zero (S := S1x128) hz]
  rw [cell_payload]
  refine funext fun (y : S256x128.Idx) => ?_
  obtain ⟨p, q, rfl⟩ : ∃ (p : Fin 256) (q : Fin 128), y = ix2 p q := ⟨y 0, y 1, eq_ix2 y⟩
  obtain ⟨-, -, -, -, e0, e1⟩ := idx_tile t
  have hr : rowOf t p = ((cfg0.win 20).blk t).view.emb (ix2 p q) 0 := Fin.ext (by
    show t.val / 16 * 256 + p.val = win0_20.index t (0 : Fin 2) * 256 + 1 * p.val; rw [e0]; omega)
  have hc : colOf t q = ((cfg0.win 20).blk t).view.emb (ix2 p q) 1 := Fin.ext (by
    show t.val % 16 * 128 + q.val = win0_20.index t (1 : Fin 2) * 128 + 1 * q.val; rw [e1]; omega)
  show cellBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
        (((cfg0.win 20).blk t).view.emb (ix2 p q) 0) (((cfg0.win 20).blk t).view.emb (ix2 p q) 1)
  refine (cellBlk_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      p q (rowOf t p) (colOf t q)
      (read_x m c t p) (read_h m c t p) (read_c0 m c t p q)
      (read_wgx m c t q) (read_bgx m c t q) (read_wgh m c t q) (read_bgh m c t q)
      (read_wix m c t q) (read_bix m c t q) (read_wih m c t q) (read_bih m c t q)
      (read_wfx m c t q) (read_bfx m c t q) (read_wfh m c t q) (read_bfh m c t q)).trans ?_
  exact congrArg₂ _ hr hc

/-! ## The tiles cover the arrays -/

/-- The grid point whose tile holds an array index: row block times sixteen plus feature block. -/
def pointOf (i : S4096x2048.Idx) : Fin cfg0.N :=
  ⟨(i 0).val / 256 * 16 + (i 1).val / 128, by
    have h0 : (i 0).val < 4096 := (i 0).isLt
    have h1 : (i 1).val < 2048 := (i 1).isLt
    exact Nat.lt_of_lt_of_eq (by omega) N_0.symm⟩

/-- An index is in point `t`'s hidden-state tile iff each coordinate is in the tile's range. -/
theorem mem_hidden_tile (t : Fin cfg0.N) (i : S4096x2048.Idx) :
    i ∈ ((cfg0.win 19).blk t).view.set ↔ ∀ a : Fin 2, win0_19.index t a * S256x128.size a ≤ (i a).val
      ∧ (i a).val < win0_19.index t a * S256x128.size a + S256x128.size a := by
  show i ∈ ((View.whole main_v8_0).slice (win0_19.rect t)).set ↔ _
  rw [View.set_slice_whole, Rect.mem_set_unit]
  exact Iff.rfl

/-- The same for the cell-state tile. -/
theorem mem_cell_tile (t : Fin cfg0.N) (i : S4096x2048.Idx) :
    i ∈ ((cfg0.win 20).blk t).view.set ↔ ∀ a : Fin 2, win0_20.index t a * S256x128.size a ≤ (i a).val
      ∧ (i a).val < win0_20.index t a * S256x128.size a + S256x128.size a := by
  show i ∈ ((View.whole main_v8_1).slice (win0_20.rect t)).set ↔ _
  rw [View.set_slice_whole, Rect.mem_set_unit]
  exact Iff.rfl

/-- Every index of the hidden-state array lies in the tile of the point `pointOf` names. -/
theorem cover_hidden (i : S4096x2048.Idx) :
    ∃ t : Fin cfg0.N, (cfg0.win 19).flush t = true ∧ i ∈ ((cfg0.win 19).blk t).view.set := by
  have h0 : (i 0).val < 4096 := (i 0).isLt
  have h1 : (i 1).val < 2048 := (i 1).isLt
  refine ⟨pointOf i, flush0_19 _, ?_⟩
  rw [mem_hidden_tile]
  obtain ⟨-, -, e0, e1, -, -⟩ := idx_tile (pointOf i)
  have hp : (pointOf i).val = (i 0).val / 256 * 16 + (i 1).val / 128 := rfl
  intro a
  match a with
  | ⟨0, _⟩ =>
    show win0_19.index (pointOf i) (0 : Fin 2) * 256 ≤ (i 0).val
      ∧ (i 0).val < win0_19.index (pointOf i) (0 : Fin 2) * 256 + 256
    rw [e0, hp]; omega
  | ⟨1, _⟩ =>
    show win0_19.index (pointOf i) (1 : Fin 2) * 128 ≤ (i 1).val
      ∧ (i 1).val < win0_19.index (pointOf i) (1 : Fin 2) * 128 + 128
    rw [e1, hp]; omega

/-- Every index of the cell-state array lies in the tile of the point `pointOf` names. -/
theorem cover_cell (i : S4096x2048.Idx) :
    ∃ t : Fin cfg0.N, (cfg0.win 20).flush t = true ∧ i ∈ ((cfg0.win 20).blk t).view.set := by
  have h0 : (i 0).val < 4096 := (i 0).isLt
  have h1 : (i 1).val < 2048 := (i 1).isLt
  refine ⟨pointOf i, flush0_20 _, ?_⟩
  rw [mem_cell_tile]
  obtain ⟨-, -, -, -, e0, e1⟩ := idx_tile (pointOf i)
  have hp : (pointOf i).val = (i 0).val / 256 * 16 + (i 1).val / 128 := rfl
  intro a
  match a with
  | ⟨0, _⟩ =>
    show win0_20.index (pointOf i) (0 : Fin 2) * 256 ≤ (i 0).val
      ∧ (i 0).val < win0_20.index (pointOf i) (0 : Fin 2) * 256 + 256
    rw [e0, hp]; omega
  | ⟨1, _⟩ =>
    show win0_20.index (pointOf i) (1 : Fin 2) * 128 ≤ (i 1).val
      ∧ (i 1).val < win0_20.index (pointOf i) (1 : Fin 2) * 128 + 128
    rw [e1, hp]; omega

/-! ## The two result arrays after the run -/

/-- The first result array ends holding the new hidden state. -/
theorem final_hidden (c : Dev nD) :
    (dats m 0 c).arrAt 19 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (dats m 0 c).arrAt_eq_of_cover 19 _ (fun t _ => flushed_hidden m c t) cover_hidden

/-- The second result array ends holding the new cell state. -/
theorem final_cell (c : Dev nD) :
    (dats m 0 c).arrAt 20 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 20 _ (fun t _ => flushed_cell m c t) cover_cell

end Cert.KernelIdeal.Lstm

end
-- ==== Proof.RefIsLstm.lean ====
/-
  The reference program's two results, read index by index, are the LSTM cell of LstmSpec.

  The host computes each linear layer as a `dot_general` of the activations with the TRANSPOSED weight matrix plus the
  bias broadcast along the rows; at entry (r, c) that is `∑ₖ x(r,k) · W(c,k) + b(c)`, the transposition only renaming
  which coordinate of `W` the sum runs over. The sigmoid is spelt `1 / (1 + exp (−y))` with the literal `1.0`, which is
  the logistic function by definition once the literal is read as the number one. The eight layers (and the three
  sigmoids) are the same terms at different arguments, so one reading lemma serves all of them.
-/
import proofs.«154099_j31129922961925_1_alg».proof.Proof.Gen.ReferenceIdeal.Read
import proofs.«154099_j31129922961925_1_alg».proof.Proof.LstmSpec

noncomputable section

namespace Cert.ReferenceIdeal.Lstm

open Cert.ReferenceIdeal Cert.ReferenceIdeal.Read Idealize.ShloMosaic Idealize.ShloMosaic.ValueIdx Cert.Lstm

/-- One linear layer of the reference at an index: the row of `x` against the row `i 1` of `W`, plus the bias entry. -/
theorem affine_read (x : Act) (W : Wt) (b : Bias) (i : S4096x2048.Idx) :
    val_main_v4 (F := Ideal) x W b i = affine x W b (i 0) (i 1) := by
  rw [val_main_v4_apply, val_main_v1_apply, val_main_v3_apply, val_main_v2_apply]
  unfold affine
  show (∑ k : Fin 2048, x (lidx_main_v1 i k) * val_main_v0 (F := Ideal) W (ridx_main_v1 i k)) + b (idx_main_v2 (idx_main_v3 i)) = _
  congr 1
  · refine Finset.sum_congr rfl fun k _ => ?_
    rw [val_main_v0_apply]
    congr 2
    · funext a; apply Fin.ext
      match a with
      | ⟨0, _⟩ => rfl
      | ⟨1, _⟩ => rfl
    · funext a; apply Fin.ext
      match a with
      | ⟨0, _⟩ => rfl
      | ⟨1, _⟩ => rfl
  · congr 1
    funext a; apply Fin.ext
    match a with
    | ⟨0, _⟩ => rfl

/-- A gate's pre-activation in the reference: the two layers added. -/
theorem pre_read (x h : Act) (Wx : Wt) (bx : Bias) (Wh : Wt) (bh : Bias) (i : S4096x2048.Idx) :
    val_main_v10 (F := Ideal) x h Wx bx Wh bh i = pre x h Wx bx Wh bh (i 0) (i 1) := by
  rw [val_main_v10_apply]
  show val_main_v4 (F := Ideal) x Wx bx i + val_main_v4 (F := Ideal) h Wh bh i = _
  rw [affine_read, affine_read]
  rfl

/-- The reference's sigmoid of a gate, `1 / (1 + exp (−pre))`, is the logistic function of the pre-activation. -/
theorem sigmoid_read (x h : Act) (Wx : Wt) (bx : Bias) (Wh : Wt) (bh : Bias) (i : S4096x2048.Idx) :
    val_main_v28 (F := Ideal) x h Wx bx Wh bh i = Ideal.logistic (pre x h Wx bx Wh bh (i 0) (i 1)) := by
  rw [val_main_v28_apply, val_main_v27_apply, val_main_cst_0_apply, val_main_v26_apply, val_main_v25_apply,
    val_main_cst_apply, val_main_v24_apply, val_main_v23_apply]
  show Ideal.div (Ideal.ofBits .f32 0x3F800000#32)
      (Ideal.ofBits .f32 0x3F800000#32 + Ideal.exp (-(val_main_v10 (F := Ideal) x h Wx bx Wh bh i))) = _
  rw [one_f32, pre_read, logistic_eq]

/-- The reference's second result is the new cell state. -/
theorem cell_read (x h c0 : Act) (Wgx : Wt) (bgx : Bias) (Wgh : Wt) (bgh : Bias) (Wix : Wt) (bix : Bias) (Wih : Wt) (bih : Bias)
    (Wfx : Wt) (bfx : Bias) (Wfh : Wt) (bfh : Bias) (i : S4096x2048.Idx) :
    val_main_v48 (F := Ideal) x h c0 Wgx bgx Wgh bgh Wix bix Wih bih Wfx bfx Wfh bfh i
      = cellAt x h c0 Wgx bgx Wgh bgh Wix bix Wih bih Wfx bfx Wfh bfh (i 0) (i 1) := by
  rw [val_main_v48_apply, val_main_v46_apply, val_main_v47_apply, val_main_v11_apply]
  show val_main_v28 (F := Ideal) x h Wfx bfx Wfh bfh i * c0 i
      + val_main_v28 (F := Ideal) x h Wix bix Wih bih i * Ideal.tanh (val_main_v10 (F := Ideal) x h Wgx bgx Wgh bgh i) = _
  rw [sigmoid_read, sigmoid_read, pre_read]
  have hi : c0 i = c0 (ix2 (i 0) (i 1)) := congrArg c0 (eq_ix2 i)
  rw [hi]
  rfl

/-- The reference's first result is the new hidden state. -/
theorem hidden_read (x h c0 : Act) (Wgx : Wt) (bgx : Bias) (Wgh : Wt) (bgh : Bias) (Wix : Wt) (bix : Bias) (Wih : Wt) (bih : Bias)
    (Wfx : Wt) (bfx : Bias) (Wfh : Wt) (bfh : Bias) (Wox : Wt) (box : Bias) (Woh : Wt) (boh : Bias) (i : S4096x2048.Idx) :
    val_main_v67 (F := Ideal) x h c0 Wgx bgx Wgh bgh Wix bix Wih bih Wfx bfx Wfh bfh Wox box Woh boh i
      = hiddenAt x h c0 Wgx bgx Wgh bgh Wix bix Wih bih Wfx bfx Wfh bfh Wox box Woh boh (i 0) (i 1) := by
  rw [val_main_v67_apply, val_main_v66_apply]
  show val_main_v28 (F := Ideal) x h Wox box Woh boh i
      * Ideal.tanh (val_main_v48 (F := Ideal) x h c0 Wgx bgx Wgh bgh Wix bix Wih bih Wfx bfx Wfh bfh i) = _
  rw [sigmoid_read, cell_read]
  rfl

/-- The reference's first result as a whole array, of arrays equal to the specification's arguments. -/
theorem hidden_arr (x' : Act) (h' : Act) (c0' : Act) (Wgx' : Wt) (bgx' : Bias) (Wgh' : Wt) (bgh' : Bias) (Wix' : Wt) (bix' : Bias) (Wih' : Wt) (bih' : Bias) (Wfx' : Wt) (bfx' : Bias) (Wfh' : Wt) (bfh' : Bias) (Wox' : Wt) (box' : Bias) (Woh' : Wt) (boh' : Bias)
    (x : Act) (h : Act) (c0 : Act) (Wgx : Wt) (bgx : Bias) (Wgh : Wt) (bgh : Bias) (Wix : Wt) (bix : Bias) (Wih : Wt) (bih : Bias) (Wfx : Wt) (bfx : Bias) (Wfh : Wt) (bfh : Bias) (Wox : Wt) (box : Bias) (Woh : Wt) (boh : Bias)
    (e0 : x' = x) (e1 : h' = h) (e2 : c0' = c0) (e3 : Wgx' = Wgx) (e4 : bgx' = bgx) (e5 : Wgh' = Wgh) (e6 : bgh' = bgh) (e7 : Wix' = Wix) (e8 : bix' = bix) (e9 : Wih' = Wih) (e10 : bih' = bih) (e11 : Wfx' = Wfx) (e12 : bfx' = bfx) (e13 : Wfh' = Wfh) (e14 : bfh' = bfh) (e15 : Wox' = Wox) (e16 : box' = box) (e17 : Woh' = Woh) (e18 : boh' = boh) :
    val_main_v67 (F := Ideal) x' h' c0' Wgx' bgx' Wgh' bgh' Wix' bix' Wih' bih' Wfx' bfx' Wfh' bfh' Wox' box' Woh' boh'
      = hiddenArr x h c0 Wgx bgx Wgh bgh Wix bix Wih bih Wfx bfx Wfh bfh Wox box Woh boh := by
  subst e0 e1 e2 e3 e4 e5 e6 e7 e8 e9 e10 e11 e12 e13 e14 e15 e16 e17 e18
  exact funext fun i => hidden_read _ _ _ _ _ _ _ _ _ _ _ _ _ _ _ _ _ _ _ i

/-- The reference's second result as a whole array, of arrays equal to the specification's arguments. -/
theorem cell_arr (x' : Act) (h' : Act) (c0' : Act) (Wgx' : Wt) (bgx' : Bias) (Wgh' : Wt) (bgh' : Bias) (Wix' : Wt) (bix' : Bias) (Wih' : Wt) (bih' : Bias) (Wfx' : Wt) (bfx' : Bias) (Wfh' : Wt) (bfh' : Bias)
    (x : Act) (h : Act) (c0 : Act) (Wgx : Wt) (bgx : Bias) (Wgh : Wt) (bgh : Bias) (Wix : Wt) (bix : Bias) (Wih : Wt) (bih : Bias) (Wfx : Wt) (bfx : Bias) (Wfh : Wt) (bfh : Bias)
    (e0 : x' = x) (e1 : h' = h) (e2 : c0' = c0) (e3 : Wgx' = Wgx) (e4 : bgx' = bgx) (e5 : Wgh' = Wgh) (e6 : bgh' = bgh) (e7 : Wix' = Wix) (e8 : bix' = bix) (e9 : Wih' = Wih) (e10 : bih' = bih) (e11 : Wfx' = Wfx) (e12 : bfx' = bfx) (e13 : Wfh' = Wfh) (e14 : bfh' = bfh) :
    val_main_v48 (F := Ideal) x' h' c0' Wgx' bgx' Wgh' bgh' Wix' bix' Wih' bih' Wfx' bfx' Wfh' bfh'
      = cellArr x h c0 Wgx bgx Wgh bgh Wix bix Wih bih Wfx bfx Wfh bfh := by
  subst e0 e1 e2 e3 e4 e5 e6 e7 e8 e9 e10 e11 e12 e13 e14
  exact funext fun i => cell_read _ _ _ _ _ _ _ _ _ _ _ _ _ _ _ i

end Cert.ReferenceIdeal.Lstm

end
-- ==== Proof.lean ====
/-
  An LSTM cell, fused into one kernel, against its plain formulation.

  Both programs take a batch `x`, the previous hidden and cell states `h`, `c0` (all [4096, 2048]) and, for each of the
  gates g, i, f, o, an input layer and a hidden layer (weights [2048, 2048], biases [2048]); both return

      cy = σ(pre_f) · c0 + σ(pre_i) · tanh(pre_g),     hy = σ(pre_o) · tanh(cy),
      pre_γ = (x Wγxᵀ + bγx) + (h Wγhᵀ + bγh).

  The kernel tiles the result into 16 × 16 tiles of [256, 128]; a tile needs 256 whole rows of `x` and `h` and 128 whole rows
  of each weight matrix, so every sum over the 2048 input features is taken inside one grid point, in one piece, exactly
  as the reference's `dot_general` takes it. The kernel rounds the matrix operands to bf16 first, which is the identity on
  the extended reals, and contracts the weights on their second axis where the reference transposes and contracts on the
  first: the same products under the same sum. The kernel's sigmoid is the logistic operation, the reference's is
  `1 / (1 + exp (−·))`: one function by definition. No term is moved across a sum and nothing is cancelled, so the
  equality holds entry by entry on all extended reals and the finiteness of the inputs is never used.

  Modules: LstmSpec (the cell as a function of the nineteen arrays), RefIsLstm (the reference's results are that function),
  KernelBlock (what one grid point computes on its blocks), KernelValue (the tiles cover the arrays, so the kernel's results
  are that function too). Here: the three frames, and the two runs side by side.
-/
import proofs.«154099_j31129922961925_1_alg».proof.Defs
import proofs.«154099_j31129922961925_1_alg».proof.Proof.Gen.Kernel
import proofs.«154099_j31129922961925_1_alg».proof.Proof.Gen.Kernel.Skeleton
import proofs.«154099_j31129922961925_1_alg».proof.Proof.Gen.Kernel.Launch
import proofs.«154099_j31129922961925_1_alg».proof.Proof.Gen.Kernel.Points
import proofs.«154099_j31129922961925_1_alg».proof.Proof.Gen.Kernel.Frame
import proofs.«154099_j31129922961925_1_alg».proof.Proof.Gen.KernelIdeal
import proofs.«154099_j31129922961925_1_alg».proof.Proof.Gen.KernelIdeal.Skeleton
import proofs.«154099_j31129922961925_1_alg».proof.Proof.Gen.KernelIdeal.Launch
import proofs.«154099_j31129922961925_1_alg».proof.Proof.Gen.KernelIdeal.Points
import proofs.«154099_j31129922961925_1_alg».proof.Proof.Gen.KernelIdeal.Frame
import proofs.«154099_j31129922961925_1_alg».proof.Proof.Gen.ReferenceIdeal
import proofs.«154099_j31129922961925_1_alg».proof.Proof.Gen.Pre_finite_inputs
import proofs.«154099_j31129922961925_1_alg».proof.Proof.Gen.KernelIdeal.Value
import proofs.«154099_j31129922961925_1_alg».proof.Proof.Gen.ReferenceIdeal.Run
import proofs.«154099_j31129922961925_1_alg».proof.Proof.Gen.ReferenceIdeal.Read
import proofs.«154099_j31129922961925_1_alg».proof.Proof.KernelValue
import proofs.«154099_j31129922961925_1_alg».proof.Proof.RefIsLstm
import Idealize.ShloMosaic.Adequacy
import Idealize.ShloMosaic.Init

noncomputable section

namespace Cert.Proof

open Idealize.ShloMosaic Idealize.SL.Sem

/-- The kernel at the word level runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments alone: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Over the extended reals both programs end with the new hidden state and the new cell state of the specification,
    taken of arguments that agree. -/
theorem algebraic : Cert.algebraic_KernelIdeal_ReferenceIdeal := by
  intro m ρ m' ρ' _ hagree
  refine ⟨fun c => Cert.Lstm.hiddenArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18)),
      fun c => Cert.Lstm.cellArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Lstm.final_hidden m c),
        (h c).2.1.trans (Cert.KernelIdeal.Lstm.final_cell m c), (h c).2.2⟩)
      (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14, a15, a16, a17, a18⟩ := hagree c
      rw [Cert.ReferenceIdeal.Read.val_main_v67_eq]
      exact Cert.ReferenceIdeal.Lstm.hidden_arr _ _ _ _ _ _ _ _ _ _ _ _ _ _ _ _ _ _ _ _ _ _ _ _ _ _ _ _ _ _ _ _ _ _ _ _ _ _
        a0 a1 a2 a3 a4 a5 a6 a7 a8 a9 a10 a11 a12 a13 a14 a15 a16 a17 a18
    · obtain ⟨a0, a1, a2, a3, a4, a5, a6, a7, a8, a9, a10, a11, a12, a13, a14, a15, a16, a17, a18⟩ := hagree c
      rw [Cert.ReferenceIdeal.Read.val_main_v48_eq]
      exact Cert.ReferenceIdeal.Lstm.cell_arr _ _ _ _ _ _ _ _ _ _ _ _ _ _ _ _ _ _ _ _ _ _ _ _ _ _ _ _ _ _
        a0 a1 a2 a3 a4 a5 a6 a7 a8 a9 a10 a11 a12 a13 a14

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
